-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S100000x512 1) : IVec S_ 1 :=
  let main_c_5 : IVec S_ 1 := constantI S_ 1 1#1
  let main_v17 : IVec S_ 1 := (fun x v => Host.reduce IntOp.andi x v reducesTo_S100000x512_S_d0_1 h_S_) main_v16 main_c_5
  let main_v18 : IVec S_ 1 := andi main_v13 main_v17
  main_v18

def fn {F : FTy → Type} [FloatOps F] (main_arg0 : FVec F S100000x512 .f32) (main_arg1 : IVec S2x400000 32) (main_arg2 : FVec F S512x512 .f32) (main_arg3 : FVec F S512 .f32) (main_arg4 : FVec F S100000x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S100000x512 .f32 := Host.absf main_arg4
  let main_cst_4 : FVec F S_ .f32 := constant S_ .f32 0x7F800000#32
  let main_v15 : FVec F S100000x512 .f32 := broadcastInDim S100000x512 ![] bcast_S_S100000x512 main_cst_4
  let main_v16 : IVec S100000x512 1 := cmpf .olt main_v14 main_v15
  fn_part1 (F := F) main_v13 main_v16
-- ==== Kernel.lean ====
abbrev S100000x512 : Shape := ⟨2, ![100000, 512]⟩
abbrev S2x400000 : Shape := ⟨2, ![2, 400000]⟩
abbrev S512x512 : Shape := ⟨2, ![512, 512]⟩
abbrev S512 : Shape := ⟨1, ![512]⟩
abbrev S2000x512 : Shape := ⟨2, ![2000, 512]⟩
abbrev S100000 : Shape := ⟨1, ![100000]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S500000x512 : Shape := ⟨2, ![500000, 512]⟩
abbrev S1x512 : Shape := ⟨2, ![1, 512]⟩

abbrev nBuf : Space → Nat
  | .hbm => 69
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S100000x512, .f32⟩
  | .hbm, ⟨5, _⟩ => ⟨S512x512, .bf16⟩
  | .hbm, ⟨6, _⟩ => ⟨S100000x512, .f32⟩
  | .hbm, ⟨7, _⟩ => ⟨S100000, .i32⟩
  | .hbm, ⟨8, _⟩ => ⟨S1x400000, .i32⟩
  | .hbm, ⟨9, _⟩ => ⟨S400000, .i32⟩
  | .hbm, ⟨10, _⟩ => ⟨S500000, .i32⟩
  | .hbm, ⟨11, _⟩ => ⟨S1x400000, .i32⟩
  | .hbm, ⟨12, _⟩ => ⟨S400000, .i32⟩
  | .hbm, ⟨13, _⟩ => ⟨S500000, .i32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S100000, .f32⟩
  | .hbm, ⟨18, _⟩ => ⟨S500000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000, .f32⟩
  | .hbm, ⟨49, _⟩ => ⟨S500000, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x512, .f32⟩
  | .hbm, ⟨59, _⟩ => ⟨S500000x1, .f32⟩
  | .hbm, ⟨60, _⟩ => ⟨S500000x512, .f32⟩
  | .hbm, ⟨61, _⟩ => ⟨S500000x512, .f32⟩
  | .hbm, ⟨62, _⟩ => ⟨S_, .f32⟩
  | .hbm, ⟨63, _⟩ => ⟨S100000x512, .f32⟩
  | .hbm, ⟨64, _⟩ => ⟨S500000x1, .i32⟩
  | .hbm, ⟨65, _⟩ => ⟨S100000x512, .f32⟩
  | .hbm, ⟨66, _⟩ => ⟨S1x512, .f32⟩
  | .hbm, ⟨67, _⟩ => ⟨S100000x512, .f32⟩
  | .hbm, ⟨68, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .bf16⟩
  | .local _ .vmem, ⟨5, _⟩ => ⟨S2000x512, .f32⟩
  | .local _ .vmem, ⟨6, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x512_0_1 : S500000x1.BroadcastsInDim S500000x512 (![0, 1] : Fin 2 → Fin S500000x512.rank)
  bcast_S_S100000x512 : S_.BroadcastsInDim S100000x512 (![] : Fin 0 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S2000x512_S512x512_S2000x512_1_0_0_1_n_n_wf : DotDims.WF S2000x512 S512x512 S2000x512 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x512_S500000x1_S500000x512_1_0_n_n_0_1_1512_wf : GatherDims.WF S100000x512 S500000x1 S500000x512 [1] [0] [] [0] [] 1 ![1, 512]
  scatter_S100000x512_S500000x1_S500000x512_1_0_0_1_wf : ScatterDims.WF S100000x512 S500000x1 S500000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S100000x512.size a
  hwx0_3 : ∀ i : grid0.Coords, EltTy.bits .f32 = 32 ∨ (Rect.block (s := S100000x512) S2000x512.size (cc0_transform_3 i) (hinb0_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x512_S500000x1_S500000x512_1_0_n_n_0_1_1512 : GatherDims S100000x512 S500000x1 S500000x512 where
  offsetDims := [1]
  collapsedSliceDims := [0]
  operandBatchingDims := []
  startIndicesBatchingDims := []
  startIndexMap := [0]
  indexVectorDim := 1
  sliceSizes := ![1, 512]
  wf := gather_S100000x512_S500000x1_S500000x512_1_0_n_n_0_1_1512_wf
def scatter_S100000x512_S500000x1_S500000x512_1_0_0_1 : ScatterDims S100000x512 S500000x1 S500000x512 where
  updateWindowDims := [1]
  insertedWindowDims := [0]
  scatterDimsToOperandDims := [0]
  indexVectorDim := 1
  wf := scatter_S100000x512_S500000x1_S500000x512_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x400000 : Shape := ⟨2, ![2, 400000]⟩
abbrev S512x512 : Shape := ⟨2, ![512, 512]⟩
abbrev S512 : Shape := ⟨1, ![512]⟩
abbrev S_ : Shape := ⟨0, ![]⟩
abbrev S100000 : Shape := ⟨1, ![100000]⟩
abbrev S1x400000 : Shape := ⟨2, ![1, 400000]⟩
abbrev S400000 : Shape := ⟨1, ![400000]⟩
abbrev S500000 : Shape := ⟨1, ![500000]⟩
abbrev S500000x1 : Shape := ⟨2, ![500000, 1]⟩
abbrev S500000x512 : Shape := ⟨2, ![500000, 512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S100000x512, .f32⟩
  | .hbm, ⟨5, _⟩ => ⟨S_, .f32⟩
  | .hbm, ⟨6, _⟩ => ⟨S100000x512, .f32⟩
  | .hbm, ⟨7, _⟩ => ⟨S100000x512, .i1⟩
  | .hbm, ⟨8, _⟩ => ⟨S100000x512, .f32⟩
  | .hbm, ⟨9, _⟩ => ⟨S_, .f32⟩
  | .hbm, ⟨10, _⟩ => ⟨S100000x512, .f32⟩
  | .hbm, ⟨11, _⟩ => ⟨S100000x512, .f32⟩
  | .hbm, ⟨12, _⟩ => ⟨S100000x512, .f32⟩
  | .hbm, ⟨13, _⟩ => ⟨S100000x512, .f32⟩
  | .hbm, ⟨14, _⟩ => ⟨S100000, .i32⟩
  | .hbm, ⟨15, _⟩ => ⟨S1x400000, .i32⟩
  | .hbm, ⟨16, _⟩ => ⟨S400000, .i32⟩
  | .hbm, ⟨17, _⟩ => ⟨S500000, .i32⟩
  | .hbm, ⟨18, _⟩ => ⟨S1x400000, .i32⟩
  | .hbm, ⟨19, _⟩ => ⟨S400000, .i32⟩
  | .hbm, ⟨20, _⟩ => ⟨S500000, .i32⟩
  | .hbm, ⟨21, _⟩ => ⟨S_, .f32⟩
  | .hbm, ⟨22, _⟩ => ⟨S500000, .f32⟩
  | .hbm, ⟨23, _⟩ => ⟨S_, .f32⟩
  | .hbm, ⟨24, _⟩ => ⟨S100000, .f32⟩
  | .hbm, ⟨25, _⟩ => ⟨S500000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S500000, .i32⟩
  | .hbm, ⟨40, _⟩ => ⟨S500000, .i1⟩
  | .hbm, ⟨41, _⟩ => ⟨S_, .i32⟩
  | .hbm, ⟨42, _⟩ => ⟨S500000, .i32⟩
  | .hbm, ⟨43, _⟩ => ⟨S500000, .i32⟩
  | .hbm, ⟨44, _⟩ => ⟨S500000, .i32⟩
  | .hbm, ⟨45, _⟩ => ⟨S500000x1, .i32⟩
  | .hbm, ⟨46, _⟩ => ⟨S500000, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000, .f32⟩
  | .hbm, ⟨56, _⟩ => ⟨S500000, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x512, .f32⟩
  | .hbm, ⟨66, _⟩ => ⟨S500000x1, .f32⟩
  | .hbm, ⟨67, _⟩ => ⟨S500000x512, .f32⟩
  | .hbm, ⟨68, _⟩ => ⟨S500000x512, .f32⟩
  | .hbm, ⟨69, _⟩ => ⟨S_, .f32⟩
  | .hbm, ⟨70, _⟩ => ⟨S100000x512, .f32⟩
  | .hbm, ⟨71, _⟩ => ⟨S500000x1, .i32⟩
  | .hbm, ⟨72, _⟩ => ⟨S100000x512, .f32⟩
  | .hbm, ⟨73, _⟩ => ⟨S1x512, .f32⟩
  | .hbm, ⟨74, _⟩ => ⟨S100000x512, .f32⟩
  | .hbm, ⟨75, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S100000x512 : S_.BroadcastsInDim S100000x512 (![] : Fin 0 → Fin S100000x512.rank)
  slices_S2x400000_S1x400000_0_0 : S2x400000.Slices ![0, 0] S1x400000
  shapeCasts_S1x400000_S400000 : S1x400000.ShapeCasts S400000
  concatenates_S400000_S100000_S500000_d0 : Shape.Concatenates [S400000, S100000] S500000 0
  slices_S2x400000_S1x400000_1_0 : S2x400000.Slices ![1, 0] S1x400000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x512_0_1 : S500000x1.BroadcastsInDim S500000x512 (![0, 1] : Fin 2 → Fin S500000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x512_S100000x512_1_0_0_1_n_n_wf : DotDims.WF S100000x512 S512x512 S100000x512 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x512_S500000x1_S500000x512_1_0_n_n_0_1_1512_wf : GatherDims.WF S100000x512 S500000x1 S500000x512 [1] [0] [] [0] [] 1 ![1, 512]
  scatter_S100000x512_S500000x1_S500000x512_1_0_0_1_wf : ScatterDims.WF S100000x512 S500000x1 S500000x512 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x512_S500000x1_S500000x512_1_0_n_n_0_1_1512 : GatherDims S100000x512 S500000x1 S500000x512 where
  offsetDims := [1]
  collapsedSliceDims := [0]
  operandBatchingDims := []
  startIndicesBatchingDims := []
  startIndexMap := [0]
  indexVectorDim := 1
  sliceSizes := ![1, 512]
  wf := gather_S100000x512_S500000x1_S500000x512_1_0_n_n_0_1_1512_wf
def scatter_S100000x512_S500000x1_S500000x512_1_0_0_1 : ScatterDims S100000x512 S500000x1 S500000x512 where
  updateWindowDims := [1]
  insertedWindowDims := [0]
  scatterDimsToOperandDims := [0]
  indexVectorDim := 1
  wf := scatter_S100000x512_S500000x1_S500000x512_1_0_0_1_wf

class Facts : Prop extends Facts₀ where

variable [Facts]
-- ==== Proof.KeepScale.lean ====
/-
  Inverted dropout's keep factor, read two ways on the extended reals.

  An entry of the mask is kept when it is at least the f32 nearest to 1/10; a kept entry is rescaled so that the
  expectation is unchanged. One program divides the 0/1 indicator by D, the f32 nearest to 9/10, which is the dyadic
  rational 7549747/8388608. The other multiplies the indicator by a constant that is read as the exact reciprocal
  8388608/7549747 = 1/D. Division by a nonzero real is multiplication by its reciprocal on every extended real, so the two
  factors are one number. The indicator itself is built differently on the two sides (a one-bit compare widened to a word and
  read signed, against the same bit read unsigned), and a bit is 0 or 1 under both readings.
-/
import Idealize.ShloMosaic.PureOps.Ideal

noncomputable section

namespace Cert.Keep

open Idealize.ShloMosaic

/-- The keep factor of a mask entry `v`, in the dividing form: the indicator of `v ≥ f32(1/10)` over `f32(9/10)`. -/
def keep (v : EReal) : EReal :=
  FloatOps.hostDivf (F := Ideal) (φ := .f32)
    (FloatOps.uitofp (F := Ideal) .f32
      (FloatOps.cmpf (F := Ideal) (φ := .f32) .oge v (FloatOps.ofBits (F := Ideal) .f32 0x3DCCCCCD#32)))
    (FloatOps.ofBits (F := Ideal) .f32 0x3F666666#32)

/-- The f32 nearest to 9/10 is the dyadic rational 7549747 / 2^23. -/
theorem ofBits_nine_tenths : Ideal.ofBits .f32 0x3F666666#32 = ((7549747 / 8388608 : ℝ) : EReal) := by
  simp [Ideal.ofBits, Ideal.ieee, -EReal.coe_mul]; norm_num

/-- A single bit widened to a word with zeros and read as a signed integer is the bit read as a natural number. -/
theorem widen_bit (b : BitVec 1) : (b.setWidth 32).toInt = (b.toNat : ℤ) := by
  revert b; decide

/-- The multiplying form of the keep factor, with the multiplier the exact reciprocal of `f32(9/10)`, is the dividing form. -/
theorem scaled_bit (b : BitVec 1) (c : EReal) (hc : c = ((8388608 / 7549747 : ℝ) : EReal)) :
    FloatOps.mulf (F := Ideal) (φ := .f32) (FloatOps.sitofp (F := Ideal) .f32 (b.setWidth 32)) c
      = FloatOps.hostDivf (F := Ideal) (φ := .f32) (FloatOps.uitofp (F := Ideal) .f32 b)
          (FloatOps.ofBits (F := Ideal) .f32 0x3F666666#32) := by
  subst hc
  show (((b.setWidth 32).toInt : ℝ) : EReal) * _ = Ideal.div (((b.toNat : ℕ) : ℝ) : EReal) (Ideal.ofBits .f32 0x3F666666#32)
  rw [ofBits_nine_tenths, Ideal.div_coe (by norm_num), widen_bit, Int.cast_natCast]
  congr 2
  norm_num

end Cert.Keep

end
-- ==== Proof.KernelBlock.lean ====
/-
  One entry of what the kernel body stores, as a sum.

  At a grid point the body holds a block of 2000 rows of the features `x`, the same rows of the dropout mask, and the whole
  512 x 512 weight. It rescales the features by the keep factor of the mask entry, and multiplies the result into the
  weight on the matrix unit, into a zero accumulator. On the extended reals a change of float format is the identity and the
  matrix product is the textbook sum, so entry (p, q) of the stored block is the sum over k of
  x[p, k] * keep(mask[p, k]) * W[k, q], with the keep factor in its dividing form (its multiplier is the exact reciprocal of
  the f32 nearest to 9/10).
-/
import proofs.«101059_j12472585028062_1_alg».proof.Proof.Gen.KernelIdeal.Skeleton
import proofs.«101059_j12472585028062_1_alg».proof.Proof.KeepScale
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx
open Cert.KernelIdeal.Facts₀ Cert.KernelIdeal.Facts

/-- The kernel's multiplier denotes the exact reciprocal of the f32 nearest to 9/10. -/
theorem inv_keep : Named.named (F := Ideal) κ "inv_keep" (φ := .f32) 0x3F8E38E4#32 = ((8388608 / 7549747 : ℝ) : EReal) :=
  IdealRules.named_const.ideal_named_scalar _ _ _ _ rfl

/-! The operand indices of the block's matrix product, axis by axis: output (p, q) and contraction index k read the left
    operand at (p, k) and the right one at (k, q). -/

theorem lhs_axis0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_axis1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_axis0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_axis1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Entry (p, q) of the block the body stores: the rescaled features' row p against the weight's column q. -/
theorem stored_apply (mk x : Vec Ideal S2000x512 .f32) (w : Vec Ideal S512x512 .bf16) (p : Fin 2000) (q : Fin 512) :
    k0_pay1 (F := Ideal) mk x w (ix2 p q)
      = ∑ k : Fin 512, (x (ix2 p k) * Cert.Keep.keep (mk (ix2 p k))) * w (ix2 k q) := by
  unfold k0_pay1
  refine (Ideal.matmul_constant_zero_apply dot_S2000x512_S512x512_S2000x512_1_0_0_1_n_n none _ _ (ix2 p q)).trans ?_
  rw [← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er, shapeCast_self]
  refine congrArg (· * w (ix2 k q)) ?_
  refine congrArg (x (ix2 p k) * ·) ?_
  exact Cert.Keep.scaled_bit _ _ inv_keep

end Cert.KernelIdeal.Hand

end
-- ==== Proof.Dense.lean ====
/-
  Dropout followed by the linear layer, as one function of the whole arrays.

  Entry (i, j) of the result is the sum over k of x[i, k] * keep(mask[i, k]) * w[k, j]: row i of the features, each entry
  rescaled by the keep factor of the mask entry beside it, against column j of the weight. Both programs compute this array
  (one block of rows at a time on the matrix unit, or as one product on the host) and then aggregate it over the graph.
-/
import proofs.«101059_j12472585028062_1_alg».proof.Proof.KeepScale
import Idealize.ShloMosaic.Lib.ValueIdx

noncomputable section

namespace Cert.Dense

open Idealize.ShloMosaic Idealize.ShloMosaic.ValueIdx

/-- The dropped-out features times the weight, index by index. -/
def dense (x mk : (⟨2, ![100000, 512]⟩ : Shape).Idx → EReal) (w : (⟨2, ![512, 512]⟩ : Shape).Idx → EReal) :
    (⟨2, ![100000, 512]⟩ : Shape).Idx → EReal :=
  fun i => ∑ k : Fin 512, (x (ix2 (i 0) k) * Cert.Keep.keep (mk (ix2 (i 0) k))) * w (ix2 k (i 1))

end Cert.Dense

end
-- ==== Proof.Aggregate.lean ====
/-
  The graph aggregation both programs apply after the dense layer, as ONE function of what goes into it.

  Given the transformed features `h` (one row per node), the edge list `e` (row 0 the sources, row 1 the destinations) and
  the bias `b`: every node gets a self loop appended to the edge list; a node's degree is the number of edges that end in
  it, summed as ones scattered onto the destinations; the normaliser of a node is deg^(-1/2) where the degree is positive
  (the degree clamped below by 1e-12 under the square root) and 0 elsewhere; an edge's weight is the product of its two
  ends' normalisers; each edge sends its source's row of `h` times its weight, the messages are summed at their
  destinations, and the bias is added to every row. Negative indices wrap around by the number of nodes before a row is
  gathered.

  The two programs spell this with the same operations in the same order, each over its own copy of the shapes and
  dimension records. It is stated here once over each program's names, and the two are one function: the shapes and the
  records are equal field by field. Neither a proof about the kernel nor one about the reference ever opens it.
-/
import proofs.«101059_j12472585028062_1_alg».proof.KernelIdeal
import proofs.«101059_j12472585028062_1_alg».proof.ReferenceIdeal

set_option maxRecDepth 8192

noncomputable section

namespace Cert.Aggregate

open Idealize.ShloMosaic

variable {F : FTy → Type} [FloatOps F]

section OverReference
open Cert.ReferenceIdeal Cert.ReferenceIdeal.Facts₀ Cert.ReferenceIdeal.Facts
variable [Cert.ReferenceIdeal.Facts]

/-- The aggregation over the reference program's shapes and records. -/
def ofReference (h : FVec F Cert.ReferenceIdeal.S100000x512 .f32) (e : IVec Cert.ReferenceIdeal.S2x400000 32)
    (b : FVec F Cert.ReferenceIdeal.S512 .f32) : FVec F Cert.ReferenceIdeal.S100000x512 .f32 :=
  addf (Host.scatterAdd scatter_S100000x512_S500000x1_S500000x512_1_0_0_1 (broadcastInDim S100000x512 ![] bcast_S_S100000x512 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (mulf (Host.gather gather_S100000x512_S500000x1_S500000x512_1_0_n_n_0_1_1512 h (broadcastInDim S500000x1 ![0] bcast_S500000_S500000x1_0 (select (cmpi .slt (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0)))) (broadcastInDim S500000x512 ![0, 1] bcast_S500000x1_S500000x512_0_1 (broadcastInDim S500000x1 ![0] bcast_S500000_S500000x1_0 (mulf (Host.gather gather_S100000_S500000x1_S500000_n_0_n_n_0_1_1 (select (cmpf (F := F) .ogt (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x00000000#32))) (Host.rsqrt (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x2B8CBCCC#32)))) (broadcastInDim S100000 ![] bcast_S_S100000 (id (constant (F := F) S_ .f32 0x00000000#32)))) (broadcastInDim S500000x1 ![0] bcast_S500000_S500000x1_0 (select (cmpi .slt (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0)))) (Host.gather gather_S100000_S500000x1_S500000_n_0_n_n_0_1_1 (select (cmpf (F := F) .ogt (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x00000000#32))) (Host.rsqrt (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x2B8CBCCC#32)))) (broadcastInDim S100000 ![] bcast_S_S100000 (id (constant (F := F) S_ .f32 0x00000000#32)))) (broadcastInDim S500000x1 ![0] bcast_S500000_S500000x1_0 (select (cmpi .slt (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0))))))))) (broadcastInDim S100000x512 ![0, 1] bcast_S1x512_S100000x512_0_1 (broadcastInDim S1x512 ![1] bcast_S512_S1x512_1 b))

end OverReference

section OverKernel
open Cert.KernelIdeal Cert.KernelIdeal.Facts₀ Cert.KernelIdeal.Facts
variable [Cert.KernelIdeal.Facts]

/-- The aggregation over the kernel program's shapes and records. -/
def ofKernel (h : FVec F Cert.KernelIdeal.S100000x512 .f32) (e : IVec Cert.KernelIdeal.S2x400000 32)
    (b : FVec F Cert.KernelIdeal.S512 .f32) : FVec F Cert.KernelIdeal.S100000x512 .f32 :=
  addf (Host.scatterAdd scatter_S100000x512_S500000x1_S500000x512_1_0_0_1 (broadcastInDim S100000x512 ![] bcast_S_S100000x512 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (mulf (Host.gather gather_S100000x512_S500000x1_S500000x512_1_0_n_n_0_1_1512 h (broadcastInDim S500000x1 ![0] bcast_S500000_S500000x1_0 (select (cmpi .slt (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0)))) (broadcastInDim S500000x512 ![0, 1] bcast_S500000x1_S500000x512_0_1 (broadcastInDim S500000x1 ![0] bcast_S500000_S500000x1_0 (mulf (Host.gather gather_S100000_S500000x1_S500000_n_0_n_n_0_1_1 (select (cmpf (F := F) .ogt (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x00000000#32))) (Host.rsqrt (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x2B8CBCCC#32)))) (broadcastInDim S100000 ![] bcast_S_S100000 (id (constant (F := F) S_ .f32 0x00000000#32)))) (broadcastInDim S500000x1 ![0] bcast_S500000_S500000x1_0 (select (cmpi .slt (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![0, 0] e slices_S2x400000_S1x400000_0_0) shapeCasts_S1x400000_S400000)⟩, ⟨S100000, (iotaInDim S100000 32 0)⟩] concatenates_S400000_S100000_S500000_d0)))) (Host.gather gather_S100000_S500000x1_S500000_n_0_n_n_0_1_1 (select (cmpf (F := F) .ogt (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x00000000#32))) (Host.rsqrt (maximumf (Host.scatterAdd scatter_S100000_S500000x1_S500000_n_0_0_1 (broadcastInDim S100000 ![] bcast_S_S100000 (constant (F := F) S_ .f32 0x00000000#32)) (broadcastInDim S500000x1 ![0] bcast_S500000_S500000x1_0 (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0)) (broadcastInDim S500000 ![] bcast_S_S500000 (constant (F := F) S_ .f32 0x3F800000#32))) (broadcastInDim S100000 ![] bcast_S_S100000 (constant (F := F) S_ .f32 0x2B8CBCCC#32)))) (broadcastInDim S100000 ![] bcast_S_S100000 (id (constant (F := F) S_ .f32 0x00000000#32)))) (broadcastInDim S500000x1 ![0] bcast_S500000_S500000x1_0 (select (cmpi .slt (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0) (broadcastInDim S500000 ![] bcast_S_S500000 (constantI S_ 32 0#32))) (addi (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0) (broadcastInDim S500000 ![] bcast_S_S500000 (constantI S_ 32 100000#32))) (concatenate S500000 0 [⟨S400000, (shapeCast _ (extractStridedSlice S1x400000 ![1, 0] e slices_S2x400000_S1x400000_1_0) shapeCasts_S1x400000_S400000)⟩, ⟨S100000, (iotaInDim S100000 32 0)⟩] concatenates_S400000_S100000_S500000_d0))))))))) (broadcastInDim S100000x512 ![0, 1] bcast_S1x512_S100000x512_0_1 (broadcastInDim S1x512 ![1] bcast_S512_S1x512_1 b))

end OverKernel

/-- The two spellings are one function: the shapes are the same literals and the dimension records agree field by field. -/
theorem ofKernel_eq [Cert.KernelIdeal.Facts] [Cert.ReferenceIdeal.Facts]
    (h : FVec F Cert.KernelIdeal.S100000x512 .f32) (e : IVec Cert.KernelIdeal.S2x400000 32)
    (b : FVec F Cert.KernelIdeal.S512 .f32) :
    ofKernel h e b = ofReference h e b := rfl

end Cert.Aggregate

end
-- ==== Proof.KernelValue.lean ====
/-
  What the kernel program computes, read off its run.

  The pallas_call walks 50 grid points; point t fetches rows 2000 t .. 2000 t + 1999 of the features and of the mask, the
  whole weight (cast once on the host, which changes nothing on the extended reals), and writes back the same rows of the
  result. So what point t writes back is block t of ONE whole-array function, the dropped-out features times the weight
  (`Cert.Dense.dense`); the 50 blocks tile the 100000 rows, so after the region the array holds that function. The host
  lines after the region aggregate it over the graph and add the bias (`Cert.Aggregate`), reading the edge list and the
  bias as launched.
-/
import proofs.«101059_j12472585028062_1_alg».proof.Proof.Gen.KernelIdeal.Frame
import proofs.«101059_j12472585028062_1_alg».proof.Proof.KernelBlock
import proofs.«101059_j12472585028062_1_alg».proof.Proof.Dense
import proofs.«101059_j12472585028062_1_alg».proof.Proof.Aggregate
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.Facts₀ Cert.KernelIdeal.Facts

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the row-blocked windows are at block (t, 0), the weight's at (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid has 50 points, so a point's 2000 rows end inside the 100000 rows of the arrays. -/
theorem rows_inside (t : Fin cfg0.N) : 2000 * t.val + 2000 ≤ 100000 := by
  have h : t.val < 50 := lt_of_lt_of_eq t.isLt N_0
  omega

/-- The features' block at point t is rows 2000 t .. 2000 t + 1999 of the features as the region finds them. -/
theorem features_block (c : Dev nD) (t : Fin cfg0.N) (p : Fin 2000) (k : Fin 512) :
    (iblk m c 0 t : Vec Ideal S2000x512 .f32) (ix2 p k)
      = (V m c main_arg0 : S100000x512.Idx → EReal) (ix2 ⟨2000 * t.val + p.val, by have := rows_inside t; omega⟩ k) := by
  obtain ⟨e0, e1, -⟩ := block_index t
  unfold iblk
  rw [View.read_apply]
  show (V m c main_arg0 : S100000x512.Idx → EReal) _ = _
  refine congrArg (V m c main_arg0 : S100000x512.Idx → EReal) ?_
  funext a
  apply Fin.ext
  match a with
  | ⟨0, _⟩ => show win0_0.index t (0 : Fin 2) * 2000 + 1 * p.val = 2000 * t.val + p.val; omega
  | ⟨1, _⟩ => show win0_0.index t (1 : Fin 2) * 512 + 1 * k.val = k.val; omega

/-- The mask's block at point t is the same rows of the mask. -/
theorem mask_block (c : Dev nD) (t : Fin cfg0.N) (p : Fin 2000) (k : Fin 512) :
    (iblk m c 1 t : Vec Ideal S2000x512 .f32) (ix2 p k)
      = (V m c main_arg4 : S100000x512.Idx → EReal) (ix2 ⟨2000 * t.val + p.val, by have := rows_inside t; omega⟩ k) := by
  obtain ⟨-, -, e0, e1, -⟩ := block_index t
  unfold iblk
  rw [View.read_apply]
  show (V m c main_arg4 : S100000x512.Idx → EReal) _ = _
  refine congrArg (V m c main_arg4 : S100000x512.Idx → EReal) ?_
  funext a
  apply Fin.ext
  match a with
  | ⟨0, _⟩ => show win0_1.index t (0 : Fin 2) * 2000 + 1 * p.val = 2000 * t.val + p.val; omega
  | ⟨1, _⟩ => show win0_1.index t (1 : Fin 2) * 512 + 1 * k.val = k.val; omega

/-- The weight's block at every point is the whole cast weight. -/
theorem weight_block (c : Dev nD) (t : Fin cfg0.N) (k q : Fin 512) :
    (iblk m c 2 t : Vec Ideal S512x512 .bf16) (ix2 k q) = (V m c main_v0 : S512x512.Idx → EReal) (ix2 k q) := by
  obtain ⟨-, -, -, -, e0, e1, -⟩ := block_index t
  unfold iblk
  rw [View.read_apply]
  show (V m c main_v0 : S512x512.Idx → EReal) _ = _
  refine congrArg (V m c main_v0 : S512x512.Idx → EReal) ?_
  funext a
  apply Fin.ext
  match a with
  | ⟨0, _⟩ => show win0_2.index t (0 : Fin 2) * 512 + 1 * k.val = k.val; omega
  | ⟨1, _⟩ => show win0_2.index t (1 : Fin 2) * 512 + 1 * q.val = q.val; omega

/-- A stored block whose operands are rows r .. r + 1999 of the features and of the mask, and the whole weight, is the same
    rows of the dense layer's result. -/
theorem stored_rows (mk x : Vec Ideal S2000x512 .f32) (w : Vec Ideal S512x512 .bf16)
    (X MK : S100000x512.Idx → EReal) (W : S512x512.Idx → EReal) (r : Nat) (hr : r + 2000 ≤ 100000)
    (hx : ∀ (p : Fin 2000) (k : Fin 512), x (ix2 p k) = X (ix2 ⟨r + p.val, by omega⟩ k))
    (hmk : ∀ (p : Fin 2000) (k : Fin 512), mk (ix2 p k) = MK (ix2 ⟨r + p.val, by omega⟩ k))
    (hw : ∀ k q : Fin 512, w (ix2 k q) = W (ix2 k q))
    (p : Fin 2000) (q : Fin 512) :
    k0_pay1 (F := Ideal) mk x w (ix2 p q) = Cert.Dense.dense X MK W (ix2 ⟨r + p.val, by omega⟩ q) := by
  rw [stored_apply]
  unfold Cert.Dense.dense
  refine Finset.sum_congr rfl fun k _ => ?_
  rw [hx p k, hmk p k, hw k q]

/-- What point t writes back is block t of the dense layer's result over the arrays as the region finds them. -/
theorem flushed_eq (c : Dev nD) (t : Fin cfg0.N) :
    (dats m 0 c).flushed 3 t
      = ((cfg0.win 3).blk t).view.read (Elt Ideal) (Cert.Dense.dense (V m c main_arg0) (V m c main_arg4) (V m c main_v0)) := by
  show (cfg0.win 3).cut (grid0.coords t) ((dats m 0 c).after 3 t) = _
  rw [after0_3]
  unfold out0_3
  rw [View.canon_unit_zero zero_offsets]
  simp only [View.ld_unit_zero (S := S2000x512) zero_offsets, View.ld_unit_zero (S := S512x512) zero_offsets]
  obtain ⟨-, -, -, -, -, -, e0, e1⟩ := block_index t
  refine funext fun (j : S2000x512.Idx) => ?_
  obtain ⟨p, q, rfl⟩ : ∃ (p : Fin 2000) (q : Fin 512), j = ix2 p q := ⟨j 0, j 1, eq_ix2 j⟩
  show k0_pay1 (F := Ideal) (iblk m c 1 t) (iblk m c 0 t) (iblk m c 2 t) (ix2 p q)
    = Cert.Dense.dense (V m c main_arg0) (V m c main_arg4) (V m c main_v0) (((cfg0.win 3).blk t).view.emb (ix2 p q))
  refine (stored_rows (iblk m c 1 t) (iblk m c 0 t) (iblk m c 2 t) (V m c main_arg0) (V m c main_arg4) (V m c main_v0)
    (2000 * t.val) (rows_inside t) (fun p k => features_block m c t p k) (fun p k => mask_block m c t p k)
    (fun k q => weight_block m c t k q) p q).trans ?_
  refine congrArg (Cert.Dense.dense (V m c main_arg0) (V m c main_arg4) (V m c main_v0)) ?_
  funext a
  apply Fin.ext
  match a with
  | ⟨0, _⟩ => show 2000 * t.val + p.val = win0_3.index t (0 : Fin 2) * 2000 + 1 * p.val; omega
  | ⟨1, _⟩ => show q.val = win0_3.index t (1 : Fin 2) * 512 + 1 * q.val; omega

/-- An index of the result array is in point t's block iff each coordinate is in the block's range on its axis. -/
theorem mem_block (t : Fin cfg0.N) (i : S100000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v1).slice (win0_3.rect t)).set ↔ _
  rw [View.set_slice_whole, Rect.mem_set_unit]
  exact Iff.rfl

/-- The 50 blocks tile the rows: row r is in the block of point r / 2000, which writes back. -/
theorem covered (i : S100000x512.Idx) :
    ∃ t : Fin cfg0.N, (cfg0.win 3).flush t = true ∧ i ∈ ((cfg0.win 3).blk t).view.set := by
  have hi0 : (i 0).val < 100000 := (i 0).isLt
  have hi1 : (i 1).val < 512 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e0, e1⟩ := block_index t
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 512 ≤ (i 1).val ∧ (i 1).val < win0_3.index t (1 : Fin 2) * 512 + 512; omega

/-- After the region the result array holds the dense layer's result. -/
theorem final_dense (c : Dev nD) :
    (dats m 0 c).arrAt 3 cfg0.N = Cert.Dense.dense (V m c main_arg0) (V m c main_arg4) (V m c main_v0) :=
  (dats m 0 c).arrAt_eq_of_cover 3 _ (fun t _ => flushed_eq m c t) covered

end Cert.KernelIdeal.Hand

end
-- ==== Proof.KernelTail.lean ====
/-
  The host lines after the region, read: they are the graph aggregation of what the region left.

  After the pallas_call the program runs 62 host operations in three stretches (the degree and its normaliser, the outlined
  selection that zeroes the normaliser where the degree is not positive, then the gathers, the weights, the scatter of the
  messages and the bias). They read three things that are not computed by them: the array the region wrote, the edge list
  and the bias, the last two as launched. Their result is `Cert.Aggregate.ofKernel` of those three.
-/
import proofs.«101059_j12472585028062_1_alg».proof.Proof.Gen.KernelIdeal.Frame
import proofs.«101059_j12472585028062_1_alg».proof.Proof.Aggregate
import Idealize.ShloMosaic.Lib.StableHlo.Run
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Cert.KernelIdeal.Facts₀ Cert.KernelIdeal.Facts

variable {F : FTy → Type} [FloatOps F] [Named F]
variable (m : (ℓ : Loc nD τ sig) → Buf (Elt F) ℓ)

set_option maxHeartbeats 4000000 in
/-- The program's result buffer after the host tail: the aggregation of the region's output array, of the edge list and
    of the bias. -/
theorem tail_eq (c : Dev nD) :
    Pipeline.afterTail₀ cfgs (dats m) 0 (V0 m) [hostOps1, hostOps1_1, hostOps1_2] c main_v49
      = Cert.Aggregate.ofKernel ((dats m 0 c).arrAt 3 cfg0.N) (m ((c : Thread nD τ).loc main_arg1))
          (m ((c : Thread nD τ).loc main_arg3)) := by
  unfold Pipeline.afterTail₀
  generalize hU : Pipeline.withArrays _ c (V0 m c) _ = U
  have h1 : U (Proc.devRef .tc main_v1) = (dats m 0 c).arrAt 3 cfg0.N := by
    rw [← hU]; exact Pipeline.withArrays_arr _ launch0.win.arr_inj c _ _ 3
  have h2 : U (Proc.devRef .tc main_arg1) = m ((c : Thread nD τ).loc main_arg1) := by
    rw [← hU]
    exact (Pipeline.withArrays_of_ne _ c (V0 m c) _ main_arg1 (by exact (by decide : ∀ w, Pipeline.arrRef spec0 w ≠ main_arg1))).trans (V_main_arg1 m c)
  have h3 : U (Proc.devRef .tc main_arg3) = m ((c : Thread nD τ).loc main_arg3) := by
    rw [← hU]
    exact (Pipeline.withArrays_of_ne _ c (V0 m c) _ main_arg3 (by exact (by decide : ∀ w, Pipeline.arrRef spec0 w ≠ main_arg3))).trans (V_main_arg3 m c)
  rw [← h1, ← h2, ← h3]
  simp only [hostOps1, hostOps1_1, hostOps1_2, List.flatten_cons, List.flatten_nil, List.append_nil, List.cons_append, List.nil_append]
  after_results_simp
  unfold Cert.Aggregate.ofKernel
  rfl

end Cert.KernelIdeal.Hand

end
-- ==== Proof.KernelRun.lean ====
/-
  The kernel program's run, re-posted: its result as one function of the launched arrays.

  The region leaves the dense layer's result over the arrays as it finds them; it finds the features and the mask as
  launched, and the weight cast to bf16 on the host, which on the extended reals is the weight. The host tail aggregates
  that array with the launched edge list and bias. The arguments end as launched.
-/
import proofs.«101059_j12472585028062_1_alg».proof.Proof.KernelValue
import proofs.«101059_j12472585028062_1_alg».proof.Proof.KernelTail

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Idealize.ShloMosaic.Pipeline (Dat)
open Cert.KernelIdeal.Facts₀ Cert.KernelIdeal.Facts

variable (m : (ℓ : Loc nD τ sig) → Buf (Elt Ideal) ℓ) (ρ : Dev nD → PrngReg)

/-- The weight as the region finds it is the launched weight: the one host line before the region only changes its float
    format. -/
theorem weight_eq (c : Dev nD) :
    (V m c main_v0 : S512x512.Idx → EReal) = (m ((c : Thread nD τ).loc main_arg2) : S512x512.Idx → EReal) := by
  show StableHlo.after hostOps0 (fun b => m (c, b)) (Proc.devRef .tc main_v0) = _
  after_results
  rfl

/-- The region's output array, over the launched arrays. -/
theorem dense_launched (c : Dev nD) :
    (dats m 0 c).arrAt 3 cfg0.N
      = Cert.Dense.dense (m ((c : Thread nD τ).loc main_arg0)) (m ((c : Thread nD τ).loc main_arg4)) (m ((c : Thread nD τ).loc main_arg2)) := by
  rw [final_dense, V_main_arg0, V_main_arg4, weight_eq]

/-- The result of the kernel program as a function of its launched arguments. -/
abbrev result (c : Dev nD) : Buf (Elt Ideal) ((c.tc : Thread nD τ).loc main_v49) :=
  Cert.Aggregate.ofKernel (F := Ideal)
    (Cert.Dense.dense (m ((c : Thread nD τ).loc main_arg0)) (m ((c : Thread nD τ).loc main_arg4)) (m ((c : Thread nD τ).loc main_arg2)))
    (m ((c : Thread nD τ).loc main_arg1)) (m ((c : Thread nD τ).loc main_arg3))

/-- Every weakly fair execution of the kernel program ends with its result at the aggregation of the dense layer's result
    and with its arguments as launched. -/
theorem run : θ_run defs (onTc (τ := τ) (main (F := Ideal))) ⟨m, fun _ => 0, ρ⟩ fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v49 (Pipeline.mem_restRefs_of main_v49 (by decide) (by decide))).trans
        ((tail_eq m c).trans (by rw [dense_launched])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c)))⟩)
    (run_main m ρ)

end Cert.KernelIdeal.Hand

end
-- ==== Proof.RefValue.lean ====
/-
  What the reference program computes, read off its run.

  The reference drops out the features on the host (the mask's indicator divided by the f32 nearest to 9/10, times the
  features), multiplies by the weight in one product, and aggregates over the graph. Its product, read at an index, is the
  dense layer's result (`Cert.Dense.dense`); everything after the product is the aggregation (`Cert.Aggregate`) applied
  to it, to the edge list and to the bias.
-/
import proofs.«101059_j12472585028062_1_alg».proof.Proof.RefReadGen
import proofs.«101059_j12472585028062_1_alg».proof.Proof.Dense
import proofs.«101059_j12472585028062_1_alg».proof.Proof.Aggregate

set_option maxRecDepth 16384

noncomputable section

namespace Cert.ReferenceIdeal.Hand

open Cert.ReferenceIdeal Cert.ReferenceIdeal.Gen Cert.ReferenceIdeal.Value Cert.ReferenceIdeal.Read
open Idealize.ShloMosaic Idealize.ShloMosaic.TcCoe Idealize.SL.Sem Idealize.ShloMosaic.ValueIdx
open Cert.ReferenceIdeal.Facts₀ Cert.ReferenceIdeal.Facts

/-- The host's product of the dropped-out features with the weight is the dense layer's result: at (i, j) the sum over k of
    x[i, k] * keep(mask[i, k]) * w[k, j]. -/
theorem product_eq (x : (⟨S100000x512, .f32⟩ : BufTy).Contents (Elt Ideal)) (w : (⟨S512x512, .f32⟩ : BufTy).Contents (Elt Ideal))
    (mk : (⟨S100000x512, .f32⟩ : BufTy).Contents (Elt Ideal)) :
    val_main_v6 (F := Ideal) x w mk = Cert.Dense.dense x mk w := by
  funext i
  obtain ⟨p, q, rfl⟩ : ∃ (p : Fin 100000) (q : Fin 512), i = ix2 p q := ⟨i 0, i 1, eq_ix2 i⟩
  rw [val_main_v6_apply]
  unfold Cert.Dense.dense
  refine Finset.sum_congr rfl fun k _ => ?_
  have hl : lidx_main_v6 (ix2 p q) k = ix2 p k := funext fun a => Fin.ext (by
    match a with
    | ⟨0, _⟩ => rfl
    | ⟨1, _⟩ => rfl)
  have hr : ridx_main_v6 (ix2 p q) k = ix2 k q := funext fun a => Fin.ext (by
    match a with
    | ⟨0, _⟩ => rfl
    | ⟨1, _⟩ => rfl)
  rw [hl, hr, val_main_v5_apply, val_main_v4_apply, val_main_v2_apply, val_main_v1_apply, val_main_v3_apply,
    val_main_v0_apply, val_main_cst_apply, val_main_cst_0_apply]
  rfl

/-- The reference's composed result is the aggregation of its product, of the edge list and of the bias. -/
theorem result_eq {F : FTy → Type} [FloatOps F] (m : (ℓ : Loc nD τ sig) → Buf (Elt F) ℓ) (c : Dev nD) :
    res_main_v54 (F := F) m c
      = Cert.Aggregate.ofReference
          (val_main_v6 (F := F) (m ((c.tc : Thread nD τ).loc main_arg0)) (m ((c.tc : Thread nD τ).loc main_arg2)) (m ((c.tc : Thread nD τ).loc main_arg4)))
          (m ((c.tc : Thread nD τ).loc main_arg1)) (m ((c.tc : Thread nD τ).loc main_arg3)) := by
  unfold res_main_v54 Cert.Aggregate.ofReference val_main_v6 val_main_v5 val_main_v4 val_main_v3 val_main_v2 val_main_v1
    val_main_v0 val_main_cst val_main_cst_0
  rfl

end Cert.ReferenceIdeal.Hand

end
-- ==== Proof.lean ====
/-
  Dropout, a linear layer and a symmetric-normalised graph aggregation: the Pallas kernel against its jnp reference, equal
  as extended reals.

  Both programs compute out = A(h) + b with h = (x * keep(mask)) W: the features x rescaled entrywise by the keep factor of
  the dropout mask (the indicator of mask >= f32(1/10) over the keep probability), times the weight W, and A the aggregation
  over the graph with self loops and weights deg^(-1/2)[src] * deg^(-1/2)[dst]. They differ in two places only.
  The kernel computes h in 50 blocks of 2000 rows on the matrix unit, after casting the rescaled features and the weight to
  bf16; on the extended reals a change of float format is the identity and the blocked product is the same sum, entry by
  entry. And the kernel multiplies the indicator by a folded constant where the reference divides it by D = f32(9/10): the
  constant is read as the exact reciprocal 1/D = 8388608/7549747, and dividing by a nonzero real is multiplying by its
  reciprocal on every extended real. The aggregation is the same operations on both sides and is carried as one function,
  never opened. No finiteness of the inputs is used.
-/
import proofs.«101059_j12472585028062_1_alg».proof.Defs
import proofs.«101059_j12472585028062_1_alg».proof.Proof.Gen.Kernel.Frame
import proofs.«101059_j12472585028062_1_alg».proof.Proof.KernelRun
import proofs.«101059_j12472585028062_1_alg».proof.Proof.RefValue
import proofs.«101059_j12472585028062_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a host program: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the folded multiplier is named the exact reciprocal of f32(9/10). -/
theorem preserves : Cert.preserves_Kernel_KernelIdeal :=
  IdealRules.named_const.statement Cert.KernelIdeal.κ "inv_keep" .f32 0x3F8E38E4#32 ((8388608 / 7549747 : ℝ) : EReal) rfl

/-- From memories that agree on the arguments both programs end at the aggregation of the dense layer's result. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq, Cert.ReferenceIdeal.Hand.product_eq, (hagree c).1, (hagree c).2.1,
    (hagree c).2.2.1, (hagree c).2.2.2.1, (hagree c).2.2.2.2]
  exact (Cert.Aggregate.ofKernel_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
